-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S100000x1 : Shape := ⟨2, ![100000, 1]⟩
abbrev S1250000 : Shape := ⟨1, ![1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  main_v18

def fn {F : FTy → Type} [FloatOps F] (main_arg0 : FVec F S100000x64 .f32) (main_arg1 : FVec F S64x64 .f32) (main_arg2 : FVec F S64 .f32) (main_arg3 : FVec F S100000x1 .f32) (main_arg4 : IVec S1250000 32) (main_arg5 : IVec S1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_v13 main_v16
-- ==== Kernel.lean ====
abbrev S100000x64 : Shape := ⟨2, ![100000, 64]⟩
abbrev S64x64 : Shape := ⟨2, ![64, 64]⟩
abbrev S64 : Shape := ⟨1, ![64]⟩
abbrev S100000x1 : Shape := ⟨2, ![100000, 1]⟩
abbrev S1250000 : Shape := ⟨1, ![1250000]⟩
abbrev S10000x64 : Shape := ⟨2, ![10000, 64]⟩
abbrev S10000x1 : Shape := ⟨2, ![10000, 1]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 21
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S100000x1, .f32⟩
  | .hbm, ⟨4, _⟩ => ⟨S1250000, .i32⟩
  | .hbm, ⟨5, _⟩ => ⟨S1250000, .i32⟩
  | .hbm, ⟨6, _⟩ => ⟨S100000x64, .f32⟩
  | .hbm, ⟨7, _⟩ => ⟨S_, .i32⟩
  | .hbm, ⟨8, _⟩ => ⟨S1250000, .i32⟩
  | .hbm, ⟨9, _⟩ => ⟨S1250000, .i1⟩
  | .hbm, ⟨10, _⟩ => ⟨S_, .i32⟩
  | .hbm, ⟨11, _⟩ => ⟨S1250000, .i32⟩
  | .hbm, ⟨12, _⟩ => ⟨S1250000, .i32⟩
  | .hbm, ⟨13, _⟩ => ⟨S1250000, .i32⟩
  | .hbm, ⟨14, _⟩ => ⟨S1250000x1, .i32⟩
  | .hbm, ⟨15, _⟩ => ⟨S1250000x64, .f32⟩
  | .hbm, ⟨16, _⟩ => ⟨S_, .f32⟩
  | .hbm, ⟨17, _⟩ => ⟨S100000x64, .f32⟩
  | .hbm, ⟨18, _⟩ => ⟨S1250000x1, .i32⟩
  | .hbm, ⟨19, _⟩ => ⟨S100000x64, .f32⟩
  | .hbm, ⟨20, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S100000x1 : Shape := ⟨2, ![100000, 1]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S100000x1, .f32⟩
  | .hbm, ⟨4, _⟩ => ⟨S1250000, .i32⟩
  | .hbm, ⟨5, _⟩ => ⟨S1250000, .i32⟩
  | .hbm, ⟨6, _⟩ => ⟨S100000x64, .f32⟩
  | .hbm, ⟨7, _⟩ => ⟨S_, .i32⟩
  | .hbm, ⟨8, _⟩ => ⟨S1250000, .i32⟩
  | .hbm, ⟨9, _⟩ => ⟨S1250000, .i1⟩
  | .hbm, ⟨10, _⟩ => ⟨S_, .i32⟩
  | .hbm, ⟨11, _⟩ => ⟨S1250000, .i32⟩
  | .hbm, ⟨12, _⟩ => ⟨S1250000, .i32⟩
  | .hbm, ⟨13, _⟩ => ⟨S1250000, .i32⟩
  | .hbm, ⟨14, _⟩ => ⟨S1250000x1, .i32⟩
  | .hbm, ⟨15, _⟩ => ⟨S1250000x64, .f32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x1, .f32⟩
  | .hbm, ⟨25, _⟩ => ⟨S1250000x64, .f32⟩
  | .hbm, ⟨26, _⟩ => ⟨S1250000x64, .f32⟩
  | .hbm, ⟨27, _⟩ => ⟨S_, .f32⟩
  | .hbm, ⟨28, _⟩ => ⟨S100000x64, .f32⟩
  | .hbm, ⟨29, _⟩ => ⟨S1250000x1, .i32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  gather_S100000x1_S1250000x1_S1250000x1_1_0_n_n_0_1_11_wf : GatherDims.WF S100000x1 S1250000x1 S1250000x1 [1] [0] [] [0] [] 1 ![1, 1]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000x1_S1250000x1_S1250000x1_1_0_n_n_0_1_11 : GatherDims S100000x1 S1250000x1 S1250000x1 where
  offsetDims := [1]
  collapsedSliceDims := [0]
  operandBatchingDims := []
  startIndicesBatchingDims := []
  startIndexMap := [0]
  indexVectorDim := 1
  sliceSizes := ![1, 1]
  wf := gather_S100000x1_S1250000x1_S1250000x1_1_0_n_n_0_1_11_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Spec.lean ====
/-
  The three array functions the graph convolution is made of, index by index over the extended reals.

  With N = 100000 nodes, 64 input and 64 output features:
    proj x w n   (r, d) = (sum over k < 64 of x (r, k) * w (k, d)) * n (r, 0)     the projected features, scaled by the node's own norm
    finish a n b (r, d) = a (r, d) * n (r, 0) + b (d)                              the aggregated messages, scaled by the receiving node's norm, plus the bias
  Between the two stands the message passing (rows of the first array gathered at the edges' sources and summed into the
  edges' destinations), which both programs spell with the same two operations; it is never opened.
-/
import Idealize.ShloMosaic.PureOps.Ideal
import Idealize.ShloMosaic.Lib.ValueIdx

noncomputable section

namespace GcnSpec

open Idealize.ShloMosaic Idealize.ShloMosaic.ValueIdx

/-- Projection by the weight matrix, then the scale by the node's norm: one row of `x` against one column of `w`. -/
def proj (x : FVec Ideal ⟨2, ![100000, 64]⟩ .f32) (w : FVec Ideal ⟨2, ![64, 64]⟩ .f32) (n : FVec Ideal ⟨2, ![100000, 1]⟩ .f32) :
    FVec Ideal ⟨2, ![100000, 64]⟩ .f32 :=
  fun i => (∑ k : Fin 64, x (ix2 (i 0) k) * w (ix2 k (i 1))) * n (ix2 (i 0) (0 : Fin 1))

/-- The closing scale by the receiving node's norm and the bias added along the feature axis. -/
def finish (a : FVec Ideal ⟨2, ![100000, 64]⟩ .f32) (n : FVec Ideal ⟨2, ![100000, 1]⟩ .f32) (b : FVec Ideal ⟨1, ![64]⟩ .f32) :
    FVec Ideal ⟨2, ![100000, 64]⟩ .f32 :=
  fun i => a i * n (ix2 (i 0) (0 : Fin 1)) + b (ix1 (i 1))

end GcnSpec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibColumn.lean ====
/-
  A column broadcast along the rows' axis, read at an index.

  A [a, 1] array broadcast to [a, b] reads, at (p, c), the column's entry at row p: the unit axis is read at 0 whatever
  the column c, and the row axis is read at p (also when a = 1, where p is 0).
-/
import Idealize.ShloMosaic.Lib.Pipeline.Value
import Idealize.ShloMosaic.Lib.ValueIdx

namespace Column

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Column
-- ==== Proof.Region0.lean ====
import proofs.«115378_j7473243095261_1_alg».proof.Proof.Gen.KernelIdeal.Frame
import proofs.«115378_j7473243095261_1_alg».proof.Proof.Spec
import proofs.«115378_j7473243095261_1_alg».proof.Proof.LibPlainDot
import proofs.«115378_j7473243095261_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-! # The first pallas_call: projection and source-norm scale, tile by tile

The call walks ten row tiles of 10000 rows. At tile `t` its body holds rows `10000 t … 10000 t + 9999` of `x` and of the
norm column and the whole weight matrix, multiplies the row tile by the weights (the operands' narrowing to bf16 is the
identity on extended reals, the accumulator starts at zero) and scales each result row by that row's norm. So every tile
it writes back is the matching row tile of `GcnSpec.proj` of the three arrays as the call finds them, and the ten tiles
cover the result array. Stated for ANY contents `V` of the buffers at the call's entry. -/

variable (V : (c : Dev nD) → (b : Ref sig .tc) → Buf (Elt Ideal) ((c : Thread nD τ).loc b))

theorem zero_off : (![0, 0] : Fin 2 → Nat) = fun _ => 0 := funext fun a => by fin_cases a <;> rfl

/-- The body's stored value at row `p`, column `q` of the tile: row `p` of the `x` tile against column `q` of the
    weights, times the norm tile's entry at row `p`. -/
theorem payload_apply (x0 : Vec Ideal S10000x64 .f32) (x1 : Vec Ideal S64x64 .f32) (x2 : Vec Ideal S10000x1 .f32) (p : Fin 10000) (q : Fin 64) :
    k0_pay1 x0 x1 x2 (ix2 p q) = (∑ k : Fin 64, x0 (ix2 p k) * x1 (ix2 k q)) * x2 (ix2 p (0 : Fin 1)) := by
  unfold k0_pay1
  show mulf (F := Ideal) (matmul (F := Ideal) dot_S10000x64_S64x64_S10000x64_1_0_0_1_n_n none (truncf .bf16 x0 bitsLt_bf16_f32) (truncf .bf16 x1 bitsLt_bf16_f32) (constant S10000x64 .f32 0x00000000#32))
      (broadcastTo S10000x64 x2 broadcasts_S10000x1_S10000x64) (ix2 p q) = _
  rw [mulf_apply, Column.broadcastTo_a1_ab_apply]
  refine congrArg (· * x2 (ix2 p (0 : Fin 1))) ?_
  refine (Ideal.matmul_constant_zero_apply dot_S10000x64_S64x64_S10000x64_1_0_0_1_n_n none _ _ (ix2 p q)).trans ?_
  exact PlainDot.sum_eq dot_S10000x64_S64x64_S10000x64_1_0_0_1_n_n rfl rfl rfl rfl rfl rfl x0 x1 p q

/-- If the tiles hold the arrays' entries that tile index `j` and array index `i` pair up (same row of `x` and of the
    norm, same column of the weights), the stored value at `j` is `GcnSpec.proj` at `i`. -/
theorem payload_eq_proj (X : FVec Ideal S100000x64 .f32) (W : FVec Ideal S64x64 .f32) (Nn : FVec Ideal S100000x1 .f32)
    (x0 : Vec Ideal S10000x64 .f32) (x1 : Vec Ideal S64x64 .f32) (x2 : Vec Ideal S10000x1 .f32) (j : S10000x64.Idx) (i : S100000x64.Idx)
    (h0 : ∀ k : Fin 64, x0 (ix2 (j 0) k) = X (ix2 (i 0) k)) (h1 : ∀ k : Fin 64, x1 (ix2 k (j 1)) = W (ix2 k (i 1)))
    (h2 : x2 (ix2 (j 0) (0 : Fin 1)) = Nn (ix2 (i 0) (0 : Fin 1))) :
    k0_pay1 x0 x1 x2 j = GcnSpec.proj X W Nn i := by
  obtain ⟨p, q, rfl⟩ : ∃ (p : Fin 10000) (q : Fin 64), j = ix2 p q := ⟨j 0, j 1, eq_ix2 j⟩
  rw [payload_apply]
  unfold GcnSpec.proj
  rw [← h2]
  refine congrArg (· * x2 (ix2 p (0 : Fin 1))) (Finset.sum_congr rfl fun k _ => ?_)
  rw [← h0 k, ← h1 k]

/-- The index maps over the grid: the `x`, norm and result windows move down the rows together, tile `t` at block row
    `t`; the weights' window stays put; no window moves along the columns. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What tile `t` writes back is row tile `t` of `GcnSpec.proj` of the arrays at entry. -/
theorem flushed_eq (c : Dev nD) (t : Fin cfg0.N) :
    (dat0 V c).flushed 3 t = ((cfg0.win 3).blk t).view.read (Elt Ideal) (GcnSpec.proj (V c main_arg0) (V c main_arg1) (V c main_arg3)) := by
  show (cfg0.win 3).cut (grid0.coords t) ((dat0 V c).after 3 t) = _
  rw [after0_3]
  unfold out0_3
  rw [View.canon_unit_zero zero_off]
  simp only [View.ld_unit_zero (S := S10000x64) zero_off, View.ld_unit_zero (S := S64x64) zero_off, View.ld_unit_zero (S := S10000x1) zero_off]
  obtain ⟨e00, e01, e10, e11, e20, e21, e30, e31⟩ := index_facts t
  funext j
  refine payload_eq_proj (V c main_arg0) (V c main_arg1) (V c main_arg3) (iblk0 V c 0 t) (iblk0 V c 1 t) (iblk0 V c 2 t) j (((cfg0.win 3).blk t).view.emb j) ?_ ?_ ?_
  · intro k
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  · intro k
    show V c main_arg1 (((cfg0.win 1).blk t).view.emb (ix2 k (j 1))) = _
    refine congrArg (V c main_arg1) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_arg3 (((cfg0.win 2).blk t).view.emb (ix2 (j 0) (0 : Fin 1))) = _
    refine congrArg (V c main_arg3) (funext fun a => Fin.ext ?_)
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega

/-- An index of the result array is in tile `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Row `r` of the result lies in tile `r / 10000`: the ten tiles cover the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 10000, by rw [show cfg0.N = 10 from N_0]; omega⟩, flush0_3 _, ?_⟩
  rw [mem_blk]
  obtain ⟨-, -, -, -, -, -, e30, e31⟩ := index_facts ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 64 ≤ (i 1).val ∧ (i 1).val < win0_3.index _ (1 : Fin 2) * 64 + 64
    rw [e31]; omega

/-- THE RESULT ARRAY of the first call, after its ten tiles: `GcnSpec.proj` of `x`, the weights and the norm column as the
    call finds them. -/
theorem result (c : Dev nD) :
    (dat0 V c).arrAt 3 cfg0.N = GcnSpec.proj (V c main_arg0) (V c main_arg1) (V c main_arg3) :=
  (dat0 V c).arrAt_eq_of_cover 3 _ (fun t _ => flushed_eq V c t) cover

end Cert.KernelIdeal.Region0

end
-- ==== Proof.Region1.lean ====
import proofs.«115378_j7473243095261_1_alg».proof.Proof.Gen.KernelIdeal.Frame
import proofs.«115378_j7473243095261_1_alg».proof.Proof.Spec
import proofs.«115378_j7473243095261_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-! # The second pallas_call: destination-norm scale and bias, tile by tile

The call walks the same ten row tiles. At tile `t` its body holds rows `10000 t … 10000 t + 9999` of the aggregated
messages and of the norm column and the whole bias vector; it scales each row by that row's norm and adds the bias along
the feature axis (the bias is viewed as one row and laid over the tile's rows). So every tile it writes back is the matching
row tile of `GcnSpec.finish` of the three arrays as the call finds them, and the ten tiles cover the result array. Stated
for ANY contents `V` of the buffers at the call's entry. -/

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's stored value at row `p`, column `q` of the tile. -/
theorem payload_apply (x0 : Vec Ideal S10000x64 .f32) (x1 : Vec Ideal S10000x1 .f32) (x2 : Vec Ideal S64 .f32) (p : Fin 10000) (q : Fin 64) :
    k1_pay1 x0 x1 x2 (ix2 p q) = x0 (ix2 p q) * x1 (ix2 p (0 : Fin 1)) + x2 (ix1 q) := by
  unfold k1_pay1
  show addf (F := Ideal) (mulf (F := Ideal) (shapeCast S10000x64 x0 shapeCasts_S10000x64_S10000x64) (broadcastTo S10000x64 x1 broadcasts_S10000x1_S10000x64))
      (broadcastTo S10000x64 (shapeCast S1x64 x2 shapeCasts_S64_S1x64) broadcasts_S1x64_S10000x64) (ix2 p q) = _
  rw [addf_apply, mulf_apply, shapeCast_self, Column.broadcastTo_a1_ab_apply, broadcastTo_1b_ab_apply, shapeCast_a_1a_apply]

/-- If the tiles hold the arrays' entries that tile index `j` and array index `i` pair up, the stored value at `j` is
    `GcnSpec.finish` at `i`. -/
theorem payload_eq_finish (A : FVec Ideal S100000x64 .f32) (Nn : FVec Ideal S100000x1 .f32) (B : FVec Ideal S64 .f32)
    (x0 : Vec Ideal S10000x64 .f32) (x1 : Vec Ideal S10000x1 .f32) (x2 : Vec Ideal S64 .f32) (j : S10000x64.Idx) (i : S100000x64.Idx)
    (h0 : x0 j = A i) (h1 : x1 (ix2 (j 0) (0 : Fin 1)) = Nn (ix2 (i 0) (0 : Fin 1))) (h2 : x2 (ix1 (j 1)) = B (ix1 (i 1))) :
    k1_pay1 x0 x1 x2 j = GcnSpec.finish A Nn B i := by
  obtain ⟨p, q, rfl⟩ : ∃ (p : Fin 10000) (q : Fin 64), j = ix2 p q := ⟨j 0, j 1, eq_ix2 j⟩
  rw [payload_apply]
  unfold GcnSpec.finish
  rw [← h0, ← h1, ← h2]

/-- The index maps over the grid: the messages', norm and result windows move down the rows together, tile `t` at block
    row `t`; the bias window stays put; no window moves along the columns. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What tile `t` writes back is row tile `t` of `GcnSpec.finish` of the arrays at entry. -/
theorem flushed_eq (c : Dev nD) (t : Fin cfg1.N) :
    (dat1 V c).flushed 3 t = ((cfg1.win 3).blk t).view.read (Elt Ideal) (GcnSpec.finish (V c main_v10) (V c main_arg3) (V c main_arg2)) := by
  show (cfg1.win 3).cut (grid1.coords t) ((dat1 V c).after 3 t) = _
  rw [after1_3]
  unfold out1_3
  rw [View.canon_unit_zero zero_off2]
  simp only [View.ld_unit_zero (S := S10000x64) zero_off2, View.ld_unit_zero (S := S10000x1) zero_off2, View.ld_unit_zero (S := S64) zero_off1]
  obtain ⟨e00, e01, e10, e11, e20, e30, e31⟩ := index_facts t
  funext j
  refine payload_eq_finish (V c main_v10) (V c main_arg3) (V c main_arg2) (iblk1 V c 0 t) (iblk1 V c 1 t) (iblk1 V c 2 t) j (((cfg1.win 3).blk t).view.emb j) ?_ ?_ ?_
  · show V c main_v10 (((cfg1.win 0).blk t).view.emb j) = _
    refine congrArg (V c main_v10) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_arg3 (((cfg1.win 1).blk t).view.emb (ix2 (j 0) (0 : Fin 1))) = _
    refine congrArg (V c main_arg3) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  · show V c main_arg2 (((cfg1.win 2).blk t).view.emb (ix1 (j 1))) = _
    refine congrArg (V c main_arg2) (funext fun a => Fin.ext ?_)
    match a with
    | ⟨0, _⟩ => show win1_2.index t (0 : Fin 1) * 64 + 1 * (j 1).val = win1_3.index t (1 : Fin 2) * 64 + 1 * (j 1).val; omega

/-- An index of the result array is in tile `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v11).slice (win1_3.rect t)).set ↔ _
  rw [View.set_slice_whole, Rect.mem_set_unit]
  exact Iff.rfl

/-- Row `r` of the result lies in tile `r / 10000`: the ten tiles cover the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 10000, by rw [show cfg1.N = 10 from N_1]; omega⟩, flush1_3 _, ?_⟩
  rw [mem_blk]
  obtain ⟨-, -, -, -, -, e30, e31⟩ := index_facts ⟨(i 0).val / 10000, by rw [show cfg1.N = 10 from N_1]; omega⟩
  intro a
  match a with
  | ⟨0, _⟩ =>
    show win1_3.index _ (0 : Fin 2) * 10000 ≤ (i 0).val ∧ (i 0).val < win1_3.index _ (0 : Fin 2) * 10000 + 10000
    rw [e30]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e31]; omega

/-- THE RESULT ARRAY of the second call, after its ten tiles: `GcnSpec.finish` of the aggregated messages, the norm
    column and the bias as the call finds them. -/
theorem result (c : Dev nD) :
    (dat1 V c).arrAt 3 cfg1.N = GcnSpec.finish (V c main_v10) (V c main_arg3) (V c main_arg2) :=
  (dat1 V c).arrAt_eq_of_cover 3 _ (fun t _ => flushed_eq V c t) cover

end Cert.KernelIdeal.Region1

end
-- ==== Proof.KernelValue.lean ====
import proofs.«115378_j7473243095261_1_alg».proof.Proof.Gen.KernelIdeal.Frame
import proofs.«115378_j7473243095261_1_alg».proof.Proof.Spec
import proofs.«115378_j7473243095261_1_alg».proof.Proof.KernelRunNamed
import proofs.«115378_j7473243095261_1_alg».proof.Proof.Region0
import proofs.«115378_j7473243095261_1_alg».proof.Proof.Region1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

open Idealize.ShloMosaic.StableHlo

/-! # The kernel program's result

The program is: the first pallas_call into `main_v0`; thirteen host operations that wrap negative sources by the node
count, gather rows of `main_v0` at the sources and sum them into the destinations over a zero array (`main_v10`); the
second pallas_call from `main_v10`, the norm column and the bias into the result `main_v11`. Reading the buffers'
contents boundary by boundary: `main_v0` holds `GcnSpec.proj` of the arguments (the first call's tiles), the host
operations leave `main_v10` at the message passing applied to it, no argument is written on the way, and `main_v11` ends
at `GcnSpec.finish` of `main_v10`, the norm column and the bias (the second call's tiles). -/

variable (m : (ℓ : Loc nD τ sig) → Buf (Elt Ideal) ℓ) (ρ : Dev nD → PrngReg)

/-- The message passing over a table `h` of per-node rows: rows of `h` gathered at the sources `src` (a negative source
    wrapped by the node count, the row number then clamped into the table), summed into the destinations `dst` over a
    zero array. -/
def aggregate (h : FVec Ideal S100000x64 .f32) (src dst : IVec S1250000 32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (Host.gather gather_S100000x64_S1250000x1_S1250000x64_1_0_n_n_0_1_164 h
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 100000#32))) src)))

/-- The program's result as a function of its arguments. -/
def out (x : FVec Ideal S100000x64 .f32) (w : FVec Ideal S64x64 .f32) (b : FVec Ideal S64 .f32) (n : FVec Ideal S100000x1 .f32)
    (src dst : IVec S1250000 32) : FVec Ideal S100000x64 .f32 :=
  GcnSpec.finish (aggregate (GcnSpec.proj x w n) src dst) n b

/-! ## After the first call -/

theorem v0_W1 (c : Dev nD) : W1 m ρ c (Proc.devRef .tc main_v0) = GcnSpec.proj (m ((c : Thread nD τ).loc main_arg0)) (m ((c : Thread nD τ).loc main_arg1)) (m ((c : Thread nD τ).loc main_arg3)) :=
  (W1_arr m ρ c 3).trans (Region0.result (V0 m ρ) c)
theorem arg3_W1 (c : Dev nD) : W1 m ρ c (Proc.devRef .tc main_arg3) = (m ((c : Thread nD τ).loc main_arg3)) :=
  (W1_arr m ρ c 2).trans (((dat0 (V0 m ρ) c).arrAt_in 2 rfl _).trans (A_eq0 (V0 m ρ) c 2))
theorem arg2_W1 (c : Dev nD) : W1 m ρ c (Proc.devRef .tc main_arg2) = (m ((c : Thread nD τ).loc main_arg2)) := W1_of_ne m ρ c main_arg2 (by decide)
theorem arg4_W1 (c : Dev nD) : W1 m ρ c (Proc.devRef .tc main_arg4) = (m ((c : Thread nD τ).loc main_arg4)) := W1_of_ne m ρ c main_arg4 (by decide)
theorem arg5_W1 (c : Dev nD) : W1 m ρ c (Proc.devRef .tc main_arg5) = (m ((c : Thread nD τ).loc main_arg5)) := W1_of_ne m ρ c main_arg5 (by decide)

/-! ## After the host operations -/

theorem v10_W2 (c : Dev nD) : W2 m ρ c (Proc.devRef .tc main_v10)
    = aggregate (GcnSpec.proj (m ((c : Thread nD τ).loc main_arg0)) (m ((c : Thread nD τ).loc main_arg1)) (m ((c : Thread nD τ).loc main_arg3))) (m ((c : Thread nD τ).loc main_arg4)) (m ((c : Thread nD τ).loc main_arg5)) := by
  show StableHlo.after hostOps1 (W1 m ρ c) (Proc.devRef .tc main_v10) = _
  after_results
  rw [v0_W1, arg4_W1, arg5_W1]
  rfl
theorem arg3_W2 (c : Dev nD) : W2 m ρ c (Proc.devRef .tc main_arg3) = (m ((c : Thread nD τ).loc main_arg3)) := by
  show StableHlo.after hostOps1 (W1 m ρ c) (Proc.devRef .tc main_arg3) = _
  after_results
  exact arg3_W1 m ρ c
theorem arg2_W2 (c : Dev nD) : W2 m ρ c (Proc.devRef .tc main_arg2) = (m ((c : Thread nD τ).loc main_arg2)) := by
  show StableHlo.after hostOps1 (W1 m ρ c) (Proc.devRef .tc main_arg2) = _
  after_results
  exact arg2_W1 m ρ c

/-! ## After the second call -/

theorem v11_W3 (c : Dev nD) : W3 m ρ c (Proc.devRef .tc main_v11)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 3).trans ((Region1.result (V2 m ρ) c).trans ?_)
  show GcnSpec.finish (W2 m ρ c (Proc.devRef .tc main_v10)) (W2 m ρ c (Proc.devRef .tc main_arg3)) (W2 m ρ c (Proc.devRef .tc main_arg2)) = _
  rw [v10_W2, arg3_W2, arg2_W2]
  rfl

/-! ## The run -/

/-- Every weakly fair execution of the kernel program ends with the result buffer at `out` of the arguments and the
    arguments unchanged. -/
theorem run : θ_run defs (onTc (τ := τ) (main (F := Ideal))) ⟨m, fun _ => 0, ρ⟩ (fun r => ∀ c : Dev nD,
      r.2.mem ((c.tc : Thread nD τ).loc main_v11) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (v11_W3 m ρ c), (h c).2⟩) (run_named m ρ)

end Cert.KernelIdeal.KValue

end
-- ==== Proof.LibRowGather.lean ====
/-
  A row gather read at an index.

  The gather that `table[rows]` of a two-axis table [N, D] at a column of row numbers [E, 1] lowers to: the table's
  axis 0 is collapsed and start-indexed, its axis 1 is the one offset axis of the result [E, D] and is taken whole
  (slice sizes [1, D]), the index vector sits on axis 1 of the row numbers, and there is no batching axis.  Result
  element (e, q) is the table's element (r, q), where r is row number e read as a signed integer and clamped into
  [0, N - 1].  The row depends on e alone, not on q and not on the width D: two such gathers at one column of row
  numbers, from tables of different widths, read the same row.
-/
import Idealize.ShloMosaic.PureOps.ShapeOps
import Idealize.ShloMosaic.Lib.ValueIdx

namespace RowGather

open Idealize.ShloMosaic Idealize.ShloMosaic.ValueIdx

variable {α : Type} {N D E w : Nat}

/-- The dimension numbers of a row gather from a table [N, D] at row numbers [E, 1] into [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row that entry `e` of the row numbers selects: the number read signed, clamped into the table. -/
def rowOf (N : Nat) (idx : IVec ⟨2, ![E, 1]⟩ w) (e : Fin E) : Nat :=
  min (idx (ix2 e (0 : Fin 1))).toInt.toNat (N - 1)

theorem rowOf_lt (hN : 0 < N) (idx : IVec ⟨2, ![E, 1]⟩ w) (e : Fin E) : rowOf N idx e < N := by
  unfold rowOf; omega

/-- On the table's axis 0 the operand index is the selected row: the clamped start, no batch and no offset part. -/
theorem operandIdx_val0 (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowDims N D E wf).operandIdx j idx (0 : Fin 2)).val = rowOf N idx (j 0) := by
  show (rowDims N D E wf).start j idx 0 + (rowDims N D E wf).batchCoord j 0 + (rowDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D E wf).startIndexMap from List.mem_singleton.mpr rfl)]
  have hsi : (rowDims N D E wf).siIdx j ⟨List.idxOf (0 : Fin 2) (rowDims N D E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's axis 1 the operand index is the result's own column: no start, no batch part, the offset whole. -/
theorem operandIdx_val1 (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowDims N D E wf).operandIdx j idx (1 : Fin 2)).val = (j 1).val := by
  show (rowDims N D E wf).start j idx 1 + (rowDims N D E wf).batchCoord j 1 + (rowDims N D E wf).offCoord j 1 = _
  rw [GatherDims.batchCoord_eq_zero _ _ _ List.not_mem_nil]
  unfold GatherDims.start
  rw [dif_neg (show ¬ (1 : Fin 2) ∈ ([0] : List (Fin 2)) from by decide)]
  simp only [Nat.add_zero, Nat.zero_add]
  rfl

/-- THE ROW GATHER READ AT (e, q): the table at the selected row and the same column. -/
theorem gather_apply (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowDims N D E wf) x idx j = x (ix2 ⟨rowOf N idx (j 0), rowOf_lt hN idx (j 0)⟩ (j 1)) := by
  unfold Host.gather
  congr 1
  funext a
  refine Fin.ext ?_
  match a with
  | ⟨0, _⟩ => exact operandIdx_val0 wf idx j
  | ⟨1, _⟩ => exact operandIdx_val1 wf idx j

end RowGather
-- ==== Proof.RefValue.lean ====
import proofs.«115378_j7473243095261_1_alg».proof.Defs
import proofs.«115378_j7473243095261_1_alg».proof.Proof.Gen.ReferenceIdeal.Run
import proofs.«115378_j7473243095261_1_alg».proof.Proof.Gen.ReferenceIdeal.Read
import proofs.«115378_j7473243095261_1_alg».proof.Proof.Spec
import proofs.«115378_j7473243095261_1_alg».proof.Proof.LibRowGather
import Idealize.ShloMosaic.Lib.ValueIdx
import Idealize.ShloMosaic.PureOps.Ideal.Laws

/-!
# The reference's result as the specification's three steps

The reference multiplies the weights first (`h = x · w`), gathers rows of `h` and rows of the norm column at the edges'
sources, multiplies the two gathered arrays entry by entry, sums the products into the edges' destinations, and closes with
the destination norm and the bias. A row gather reads, at (e, q), row `r(e)` of its table at column q, and `r(e)` depends
only on entry e of the row numbers: so the product of the two gathered arrays at (e, q) is `h (r(e), q) * n (r(e), 0)`,
which is the row gather of the array `(r, q) ↦ h (r, q) * n (r, 0)` — `GcnSpec.proj`. No law of arithmetic is used: the two
sides are the same product of the same two numbers. The summation into the destinations is applied to equal arrays and is
never opened; the closing step is `GcnSpec.finish` entry by entry.
-/

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The printed index functions are the plain coordinate pairs -/

theorem lidx_eq (i : S100000x64.Idx) (k : Fin 64) : lidx_main_v0 i k = ix2 (i 0) k :=
  funext fun a => Fin.ext (by match a with | ⟨0, _⟩ => rfl | ⟨1, _⟩ => rfl)
theorem ridx_eq (i : S100000x64.Idx) (k : Fin 64) : ridx_main_v0 i k = ix2 k (i 1) :=
  funext fun a => Fin.ext (by match a with | ⟨0, _⟩ => rfl | ⟨1, _⟩ => rfl)
theorem idx15_eq (j : S1250000x64.Idx) : idx_main_v15 j = ix2 (j 0) (0 : Fin 1) :=
  funext fun a => Fin.ext (by match a with | ⟨0, _⟩ => rfl | ⟨1, _⟩ => rfl)
theorem idx20_eq (i : S100000x64.Idx) : idx_main_v20 i = ix2 (i 0) (0 : Fin 1) :=
  funext fun a => Fin.ext (by match a with | ⟨0, _⟩ => rfl | ⟨1, _⟩ => rfl)
theorem idx22_23_eq (i : S100000x64.Idx) : idx_main_v22 (idx_main_v23 i) = ix1 (i 1) :=
  funext fun a => Fin.ext (by match a with | ⟨0, _⟩ => rfl)

/-! ## The two gathers are row gathers at one table of row numbers -/

theorem gatherWide_eq : gather_S100000x64_S1250000x1_S1250000x64_1_0_n_n_0_1_164 = RowGather.rowDims 100000 64 1250000 Cert.ReferenceIdeal.Gen.gather_S100000x64_S1250000x1_S1250000x64_1_0_n_n_0_1_164_wf := rfl
theorem gatherNorm_eq : gather_S100000x1_S1250000x1_S1250000x1_1_0_n_n_0_1_11 = RowGather.rowDims 100000 1 1250000 Cert.ReferenceIdeal.Gen.gather_S100000x1_S1250000x1_S1250000x1_1_0_n_n_0_1_11_wf := rfl

/-- The row numbers (the sources, a negative one wrapped by the node count, as a column) are computed twice by the
    reference, by the same operations. -/
theorem rows_eq (x4 : IVec S1250000 32) : val_main_v13 (F := Ideal) x4 = val_main_v6 (F := Ideal) x4 := rfl

/-! ## The messages -/

/-- Gathered rows of `x · w` times the gathered norms are the gathered rows of `GcnSpec.proj`. -/
theorem messages_eq (x0 : FVec Ideal S100000x64 .f32) (x1 : FVec Ideal S64x64 .f32) (x3 : FVec Ideal S100000x1 .f32) (x4 : IVec S1250000 32) :
    val_main_v16 (F := Ideal) x0 x1 x3 x4 = Host.gather gather_S100000x64_S1250000x1_S1250000x64_1_0_n_n_0_1_164 (GcnSpec.proj x0 x1 x3) (val_main_v6 (F := Ideal) x4) := by
  funext j
  rw [val_main_v16_apply, val_main_v15_apply, idx15_eq]
  show FloatOps.mulf (Host.gather gather_S100000x64_S1250000x1_S1250000x64_1_0_n_n_0_1_164 (val_main_v0 (F := Ideal) x0 x1) (val_main_v6 (F := Ideal) x4) j)
      (Host.gather gather_S100000x1_S1250000x1_S1250000x1_1_0_n_n_0_1_11 x3 (val_main_v13 (F := Ideal) x4) (ix2 (j 0) (0 : Fin 1))) = _
  rw [rows_eq, gatherWide_eq, gatherNorm_eq]
  rw [RowGather.gather_apply (by decide : 0 < 100000), RowGather.gather_apply (by decide : 0 < 100000), RowGather.gather_apply (by decide : 0 < 100000)]
  rw [val_main_v0_apply]
  simp only [lidx_eq, ridx_eq]
  rfl

/-! ## The result -/

/-- THE REFERENCE'S RESULT: `GcnSpec.finish` of the messages `GcnSpec.proj` gathered at the sources and summed into the
    destinations. -/
theorem result_eq (x0 : FVec Ideal S100000x64 .f32) (x1 : FVec Ideal S64x64 .f32) (x2 : FVec Ideal S64 .f32) (x3 : FVec Ideal S100000x1 .f32) (x4 x5 : IVec S1250000 32) :
    val_main_v24 (F := Ideal) x0 x1 x2 x3 x4 x5
      = GcnSpec.finish (Host.scatterAdd scatter_S100000x64_S1250000x1_S1250000x64_1_0_0_1 (val_main_v17 (F := Ideal)) (val_main_v18 (F := Ideal) x5)
          (Host.gather gather_S100000x64_S1250000x1_S1250000x64_1_0_n_n_0_1_164 (GcnSpec.proj x0 x1 x3) (val_main_v6 (F := Ideal) x4))) x3 x2 := by
  funext i
  rw [val_main_v24_apply, val_main_v21_apply, val_main_v20_apply, val_main_v23_apply, val_main_v22_apply, idx20_eq, idx22_23_eq]
  unfold val_main_v19
  rw [messages_eq]
  rfl

end Cert.ReferenceIdeal.RefValue

end
-- ==== Proof.lean ====
/- A graph convolution over 100000 nodes and 1250000 edges, against its plain reference, over the extended reals.

   The reference computes  out = segment_sum ((x · w)[src] * norm[src], dst) * norm + bias.
   The kernel program folds the source norm into the projection BEFORE the gather:  hn = (x · w) * norm  in a first
   pallas_call, then  out = segment_sum (hn[src], dst) * norm + bias,  the gather and the segment sum on the host and the
   closing scale and bias in a second pallas_call.

   Both gathers read, for edge e, the table's row r(e) (the source, a negative one wrapped by the node count, clamped into
   the table), and r(e) depends on the edge alone. So (x · w)[src] * norm[src] at (e, d) is  (x · w)(r(e), d) * norm(r(e))
   — the entry (r(e), d) of hn, that is hn[src] at (e, d): the same product of the same two numbers, no law of arithmetic
   needed and no finiteness. The segment sum is then applied to equal arrays (it is never opened), and the closing step is
   the same expression entry by entry. The matrix products agree because at the ideal instance a matrix product into a zero
   accumulator and the host's dot_general are both the plain sum over k of x(r, k) * w(k, d), whatever the tiling, and the
   kernel's narrowing of its operands is the identity.

   Modules: Spec (the two array functions), Region0 / Region1 (what each pallas_call leaves in its result array, from its
   ten tiles), KernelValue (the kernel program's result through its buffers' contents), RefValue (the reference's result in
   the same form), and the claims below. -/
import proofs.«115378_j7473243095261_1_alg».proof.Defs
import proofs.«115378_j7473243095261_1_alg».proof.Proof.Gen.Kernel
import proofs.«115378_j7473243095261_1_alg».proof.Proof.Gen.Kernel.Skeleton
import proofs.«115378_j7473243095261_1_alg».proof.Proof.Gen.Kernel.Launch
import proofs.«115378_j7473243095261_1_alg».proof.Proof.Gen.Kernel.Points
import proofs.«115378_j7473243095261_1_alg».proof.Proof.Gen.Kernel.Frame
import proofs.«115378_j7473243095261_1_alg».proof.Proof.Gen.KernelIdeal
import proofs.«115378_j7473243095261_1_alg».proof.Proof.Gen.KernelIdeal.Skeleton
import proofs.«115378_j7473243095261_1_alg».proof.Proof.Gen.KernelIdeal.Launch
import proofs.«115378_j7473243095261_1_alg».proof.Proof.Gen.KernelIdeal.Points
import proofs.«115378_j7473243095261_1_alg».proof.Proof.Gen.KernelIdeal.Frame
import proofs.«115378_j7473243095261_1_alg».proof.Proof.Gen.ReferenceIdeal
import proofs.«115378_j7473243095261_1_alg».proof.Proof.Gen.ReferenceIdeal.Run
import proofs.«115378_j7473243095261_1_alg».proof.Proof.Gen.ReferenceIdeal.Read
import proofs.«115378_j7473243095261_1_alg».proof.Proof.Gen.Pre_finite_inputs
import proofs.«115378_j7473243095261_1_alg».proof.Proof.KernelValue
import proofs.«115378_j7473243095261_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result, over its own copies of the shapes and dimension records, is the kernel program's
    `KValue.out` of the same arrays: the two are one expression. -/
theorem reference_result_eq (x0 : FVec Ideal Cert.ReferenceIdeal.S100000x64 .f32) (x1 : FVec Ideal Cert.ReferenceIdeal.S64x64 .f32)
    (x2 : FVec Ideal Cert.ReferenceIdeal.S64 .f32) (x3 : FVec Ideal Cert.ReferenceIdeal.S100000x1 .f32) (x4 x5 : IVec Cert.ReferenceIdeal.S1250000 32) :
    Cert.ReferenceIdeal.Read.val_main_v24 (F := Ideal) x0 x1 x2 x3 x4 x5 = Cert.KernelIdeal.KValue.out x0 x1 x2 x3 x4 x5 :=
  (Cert.ReferenceIdeal.RefValue.result_eq x0 x1 x2 x3 x4 x5).trans rfl

/-- From memories that agree on the arguments both programs end with `KValue.out` of them in their result buffers. -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2]
  exact reference_result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
